-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S8192x1024 .f32) (main_arg1 : FVec F S4096x1024 .f32) (main_arg2 : FVec F S4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Kernel.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩
abbrev S512x1024 : Shape := ⟨2, ![512, 1024]⟩
abbrev S1024x512 : Shape := ⟨2, ![1024, 512]⟩
abbrev S1x1024 : Shape := ⟨2, ![1, 1024]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S4096x1024, .f32⟩
  | .hbm, ⟨3, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x512, .f32⟩
  | .local _ .vmem, ⟨7, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x1024_S512x1024_S1024x512_1_1_0_0_n_n_wf : DotDims.WF S1024x1024 S512x1024 S1024x512 [1] [1] [0] [0] [] []
  dot_S1x1024_S512x1024_S1x512_1_1_0_0_n_n_wf : DotDims.WF S1x1024 S512x1024 S1x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1x1024_S512x1024_S1x512_1_1_0_0_n_n : DotDims S1x1024 S512x1024 S1x512 where
  lhsContracting := [1]
  rhsContracting := [1]
  lhsNonContracting := [0]
  rhsNonContracting := [0]
  lhsBatch := []
  rhsBatch := []
  wf := dot_S1x1024_S512x1024_S1x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S_ : Shape := ⟨0, ![]⟩
abbrev S1024x4096 : Shape := ⟨2, ![1024, 4096]⟩
abbrev S8192x4096 : Shape := ⟨2, ![8192, 4096]⟩
abbrev S4096 : Shape := ⟨1, ![4096]⟩
abbrev S1x4096 : Shape := ⟨2, ![1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S8192x1024, .f32⟩
  | .hbm, ⟨8, _⟩ => ⟨S1024x4096, .f32⟩
  | .hbm, ⟨9, _⟩ => ⟨S8192x4096, .f32⟩
  | .hbm, ⟨10, _⟩ => ⟨S4096x1024, .f32⟩
  | .hbm, ⟨11, _⟩ => ⟨S1024x4096, .f32⟩
  | .hbm, ⟨12, _⟩ => ⟨S8192x4096, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  transposes_S4096x1024_S1024x4096_1_0 : S4096x1024.Transposes [1, 0] S1024x4096
  reducesTo_S4096x1024_S4096_d1 : S4096x1024.ReducesTo [1] S4096
  h_S_ : 0 < S_.numel
  bcast_S_S8192x4096 : S_.BroadcastsInDim S8192x4096 (![] : Fin 0 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.LibDotNT.lean ====
/-
  A matrix product against a right operand stored row by row, `[M, K] × [N, K] → [M, N]`, read at one element, at
  the ideal values, at any extents.

  Both operands are contracted along their SECOND axis and there is no batch axis: the element `(p, q)` of the
  product is `∑ k, lhs (p, k) · rhs (q, k)` on the extended reals — row `p` of the left operand against row `q` of
  the right one, `k` running over the `K` positions of the contracted axis. The dimension numbers enter through
  equations on their lists, so that a program's own record (whose lists are literals) supplies each by `rfl`.
-/
import Idealize.ShloMosaic.Lib.ValueIdx
import Idealize.ShloMosaic.PureOps.Ideal.Laws

open scoped BigOperators

namespace Idealize.ShloMosaic.DotNT

open Idealize.ShloMosaic Idealize.ShloMosaic.ValueIdx

variable {M K N : Nat} (d : DotDims ⟨2, ![M, K]⟩ ⟨2, ![N, K]⟩ ⟨2, ![M, N]⟩)

/-- An index read at two spellings of one position has one value. -/
private theorem val_at {s : Shape} (j : s.Idx) (a b : Nat) (ha : a < s.rank) (hb : b < s.rank) (h : a = b) :
    (j ⟨a, ha⟩).val = (j ⟨b, hb⟩).val := by subst h; rfl

/-- The left operand's free axis carries the result's row. -/
theorem lhs_free (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_at j _ _ _ _ (by simp [hlb, hln])

/-- The left operand's second axis carries the contraction position. -/
theorem lhs_contr (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's free axis — its FIRST — carries the result's column. -/
theorem rhs_free (hlb : d.lhsBatch = []) (hrb : d.rhsBatch = []) (hln : d.lhsNonContracting = [0])
    (hrn : d.rhsNonContracting = [0]) (j : (⟨2, ![M, N]⟩ : Shape).Idx) (k : d.contr.Idx) :
    (d.rhsIdx j k 0).val = (j 1).val := by
  unfold DotDims.rhsIdx
  rw [dif_neg (by rw [hrb]; exact List.not_mem_nil),
    dif_pos (show (0 : Fin 2) ∈ d.rhsNonContracting by rw [hrn]; exact List.mem_singleton.mpr rfl)]
  simp only [Fin.val_cast]
  exact val_at j _ _ _ _ (by simp [hlb, hln, hrn])

/-- The right operand's second axis carries the contraction position too. -/
theorem rhs_contr (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

section Sum

variable (hlb : d.lhsBatch = []) (hrb : d.rhsBatch = []) (hln : d.lhsNonContracting = [0])
  (hrn : d.rhsNonContracting = [0]) (hlc : d.lhsContracting = [1]) (hrc : d.rhsContracting = [1])
  (hr : d.contr.rank = 1) (hs : d.contr.size ⟨0, by omega⟩ = K)

include hlb hrb hln hrn hlc hrc hr hs

/-- The contraction's sum over the contracted axis's positions: row `p` of the left operand against row `q` of
    the right one. -/
theorem sum_rows (lhs : (⟨2, ![M, K]⟩ : Shape).Idx → EReal) (rhs : (⟨2, ![N, K]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_free d hlb hln _ _
    | ⟨1, _⟩ => exact (lhs_contr d hlc _ _).trans hk
  have er : d.rhsIdx (ix2 p q) ((contrEquiv1 d K hr hs).symm k) = ix2 q k := by
    funext a; refine Fin.ext ?_
    match a with
    | ⟨0, _⟩ => exact rhs_free d hlb hrb hln hrn _ _
    | ⟨1, _⟩ => exact (rhs_contr d hrc _ _).trans hk
  rw [el, er]

/-- A kernel's `tpu.matmul` of this form into the zero splat, at `(p, q)`. -/
theorem matmul_zero_apply {φ₁ φ₂ : FTy} (prec : Option ContractPrecision) (lhs : FVec Ideal ⟨2, ![M, K]⟩ φ₁)
    (rhs : FVec Ideal ⟨2, ![N, K]⟩ φ₂) (p : Fin M) (q : Fin N) :
    matmul d prec lhs rhs (constant ⟨2, ![M, N]⟩ .f32 0x00000000#32) (ix2 p q)
      = ∑ k : Fin K, lhs (ix2 p k) * rhs (ix2 q k) := by
  show FloatOps.matmul d prec lhs rhs (constant ⟨2, ![M, N]⟩ .f32 0x00000000#32) (ix2 p q) = _
  rw [Ideal.matmul_constant_zero_apply]
  exact sum_rows d hlb hrb hln hrn hlc hrc hr hs lhs rhs p q

/-- A host program's `dot_general` of this form, at `(p, q)`. -/
theorem dotGeneral_apply {φ₁ φ₂ : FTy} (prec : Option ContractPrecision) (lhs : FVec Ideal ⟨2, ![M, K]⟩ φ₁)
    (rhs : FVec Ideal ⟨2, ![N, K]⟩ φ₂) (p : Fin M) (q : Fin N) :
    Host.dotGeneral d prec lhs rhs (ix2 p q) = ∑ k : Fin K, lhs (ix2 p k) * rhs (ix2 q k) := by
  show FloatOps.dotGeneral d prec .single lhs rhs (ix2 p q) = _
  rw [Ideal.dotGeneral_apply]
  exact sum_rows d hlb hrb hln hrn hlc hrc hr hs lhs rhs p q

end Sum

end Idealize.ShloMosaic.DotNT
-- ==== Proof.QuadForm.lean ====
/-
  The unnormalised log-density of a diagonal Gaussian in its expanded quadratic form, on the extended reals:
  for a batch row `x` and a feature's mean row `mu` and scale row `s`, all of length `D`,

      -1/2 · ( ∑_d x_d² / s_d²  −  2 · ∑_d x_d · (mu_d / s_d²)  +  ∑_d mu_d² / s_d² ),

  the three sums kept apart (they are not recombined into `∑ ((x − mu) / s)²`: on the extended reals that
  would need distributivity, which fails at the infinities; nothing here needs it). `1 / s²` is the total
  division of the ideal values, so a zero scale is no special case. The three constants are kept as their f32
  words: both programs spell the same words, and none is ever evaluated.
-/
import Idealize.ShloMosaic.Lib.ValueIdx
import Idealize.ShloMosaic.PureOps.Ideal.Laws

open scoped BigOperators

noncomputable section

namespace Cert.QuadForm

open Idealize.ShloMosaic Idealize.ShloMosaic.ValueIdx

/-- The inverse squared scale `1 / s²`. -/
def invSq (s : EReal) : EReal := Ideal.div (Ideal.ofBits .f32 0x3F800000#32) (s * s)

/-- One entry of the result from one row each of `x`, `mu` and the scales. -/
def rowForm {D : Nat} (xr mr sr : Fin D → EReal) : EReal :=
  Ideal.ofBits .f32 0xBF000000#32 *
    ((∑ d, xr d * xr d * invSq (sr d))
      - Ideal.ofBits .f32 0x40000000#32 * (∑ d, xr d * (mr d * invSq (sr d)))
      + ∑ d, mr d * mr d * invSq (sr d))

/-- The whole result: entry `(b, f)` pairs row `b` of `x` with row `f` of `mu` and of the scales. -/
def logProb (x : (⟨2, ![8192, 1024]⟩ : Shape).Idx → EReal) (mu s : (⟨2, ![4096, 1024]⟩ : Shape).Idx → EReal) :
    (⟨2, ![8192, 4096]⟩ : Shape).Idx → EReal :=
  fun i => rowForm (fun d => x (ix2 (i 0) d)) (fun d => mu (ix2 (i 1) d)) (fun d => s (ix2 (i 1) d))

/-- At coordinates. -/
theorem logProb_apply (x : (⟨2, ![8192, 1024]⟩ : Shape).Idx → EReal) (mu s : (⟨2, ![4096, 1024]⟩ : Shape).Idx → EReal)
    (b : Fin 8192) (f : Fin 4096) :
    logProb x mu s (ix2 b f) = rowForm (fun d => x (ix2 b d)) (fun d => mu (ix2 f d)) (fun d => s (ix2 f d)) := rfl

end Cert.QuadForm

end
-- ==== Proof.KernelEntry.lean ====
/-
  One entry of the kernel body's stored value. From a block of `x` (1024 rows) and the blocks of `mu` and of the
  scales (512 rows each, all of length 1024) the body stores, at `(p, q)`, the quadratic form of row `p` of the
  `x` block against row `q` of the `mu` and scale blocks: its first two sums are matrix products against operands
  stored row by row, read as sums over the contracted axis; its third is such a product whose left operand is a row
  of ones, so each term is `1 · (mu² / s²)`, which is the term itself. The narrowing of the operands to bf16 before
  the products is the identity at the ideal values.
-/
import proofs.«127653_j32409823216060_1_alg».proof.Proof.Gen.KernelIdeal.Skeleton
import proofs.«127653_j32409823216060_1_alg».proof.Proof.LibDotNT
import proofs.«127653_j32409823216060_1_alg».proof.Proof.QuadForm
import Idealize.ShloMosaic.Lib.Pipeline.Value

open scoped BigOperators

noncomputable section

namespace Cert.KernelIdeal.Entry

open Cert.KernelIdeal Cert.KernelIdeal.Gen Idealize.ShloMosaic Idealize.ShloMosaic.ValueIdx

/-- The bf16 word of the ones row denotes `1`. -/
theorem one_bf16 : Ideal.ofBits .bf16 0x3F80#16 = 1 := IdealRules.sign_bit.ideal_onePat .bf16

/-- The row of per-feature sums, spread over the 1024 rows of the block: entry `(p, q)` reads column `q`. -/
theorem spread_apply (v : FVec Ideal S1x512 .f32) (p : Fin 1024) (q : Fin 512) :
    broadcastTo S1024x512 v broadcasts_S1x512_S1024x512 (ix2 p q) = v (ix2 (0 : Fin 1) q) :=
  broadcastTo_apply v broadcasts_S1x512_S1024x512 (ix2 p q) (ix2 (0 : Fin 1) q) (fun a => match a with
    | ⟨0, _⟩ => rfl
    | ⟨1, _⟩ => rfl)

/-- The stored value at `(p, q)` is the quadratic form of the blocks' rows `p` and `q`. -/
theorem pay_apply (x0 : Vec Ideal S1024x1024 .f32) (x1 x2 : Vec Ideal S512x1024 .f32) (p : Fin 1024) (q : Fin 512) :
    k0_pay1 (F := Ideal) x0 x1 x2 (ix2 p q)
      = Cert.QuadForm.rowForm (fun d => x0 (ix2 p d)) (fun d => x1 (ix2 q d)) (fun d => x2 (ix2 q d)) := by
  unfold k0_pay1
  simp only [mulf_apply, addf_apply, subf_apply, broadcast_apply]
  rw [spread_apply,
    DotNT.matmul_zero_apply dot_S1024x1024_S512x1024_S1024x512_1_1_0_0_n_n rfl rfl rfl rfl rfl rfl rfl rfl none _ _ p q,
    DotNT.matmul_zero_apply dot_S1024x1024_S512x1024_S1024x512_1_1_0_0_n_n rfl rfl rfl rfl rfl rfl rfl rfl none _ _ p q,
    DotNT.matmul_zero_apply dot_S1x1024_S512x1024_S1x512_1_1_0_0_n_n rfl rfl rfl rfl rfl rfl rfl rfl none _ _ (0 : Fin 1) q]
  simp only [truncf_apply, mulf_apply, divf_apply, broadcast_apply, Ideal.ofBits_def, one_bf16, one_mul]
  rfl

end Cert.KernelIdeal.Entry

end
-- ==== Proof.KernelWhole.lean ====
/-
  From the blocks to the whole array. The grid is 8 × 8; point `t` writes back the `1024 × 512` block of the
  result at block row `i`, block column `j`, computed from block row `i` of `x` (1024 whole rows) and block
  row `j` of `mu` and of the scales (512 whole rows each). Entry `(p, q)` of that block sits at row `1024·i + p`,
  column `512·j + q` of the result and is the quadratic form of row `1024·i + p` of `x` against row `512·j + q` of
  `mu` and the scales — so every block is the restriction of ONE whole-array function, and the 64 blocks tile the
  `8192 × 4096` result.
-/
import proofs.«127653_j32409823216060_1_alg».proof.Proof.Gen.KernelIdeal.Value
import proofs.«127653_j32409823216060_1_alg».proof.Proof.KernelEntry
import Idealize.ShloMosaic.Lib.Pipeline.Value

open scoped BigOperators

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The index maps over the 64 grid points: `x` moves with the result's block row, `mu` and the scales with its
    block column, each over whole rows; the result's block indices stay below 8. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = win0_3.index t (1 : Fin 2) ∧ win0_2.index t (1 : Fin 2) = 0
    ∧ win0_3.index t (0 : Fin 2) ≤ 7 ∧ win0_3.index t (1 : Fin 2) ≤ 7 :=
  (by decide +kernel : ∀ t : Fin grid0.N, _)

/-- Every block position of the 8 × 8 tiling is some point's. -/
theorem idx_onto : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-- What point `t` writes back is block `t` of the quadratic form of the argument arrays. -/
theorem flushed_eq (c : Dev nD) (t : Fin cfg0.N) :
    (dats m 0 c).flushed 3 t = ((cfg0.win 3).blk t).view.read (Elt Ideal)
      (Cert.QuadForm.logProb (V m c main_arg0) (V m c main_arg1) (V m c main_arg2)) := by
  rw [Value.flushed3]
  unfold out0_3
  rw [View.canon_unit_zero origin]
  simp only [View.ld_unit_zero (S := S1024x1024) origin, View.ld_unit_zero (S := S512x1024) origin]
  obtain ⟨e0, e1, e2, e3, e4, e5, e6, e7⟩ := idx_facts t
  funext j
  obtain ⟨p, q, rfl⟩ : ∃ (p : Fin 1024) (q : Fin 512), j = ix2 p q := ⟨j 0, j 1, eq_ix2 j⟩
  show k0_pay1 (F := Ideal) (iblk m c 0 t) (iblk m c 1 t) (iblk m c 2 t) (ix2 p q)
    = Cert.QuadForm.logProb (V m c main_arg0) (V m c main_arg1) (V m c main_arg2) (((cfg0.win 3).blk t).view.emb (ix2 p q))
  refine (Cert.KernelIdeal.Entry.pay_apply (iblk m c 0 t) (iblk m c 1 t) (iblk m c 2 t) p q).trans ?_
  have h0 : ∀ d : Fin 1024, iblk m c 0 t (ix2 p d)
      = V m c main_arg0 (ix2 ((((cfg0.win 3).blk t).view.emb (ix2 p q)) 0) d) := by
    intro d
    show V m c main_arg0 (((cfg0.win 0).blk t).view.emb (ix2 p d)) = _
    refine congrArg (V m c main_arg0) (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 1024 + 1 * d.val = d.val; omega
  have h1 : ∀ d : Fin 1024, iblk m c 1 t (ix2 q d)
      = V m c main_arg1 (ix2 ((((cfg0.win 3).blk t).view.emb (ix2 p q)) 1) d) := by
    intro d
    show V m c main_arg1 (((cfg0.win 1).blk t).view.emb (ix2 q d)) = _
    refine congrArg (V m c main_arg1) (funext fun a => Fin.ext ?_)
    match a with
    | ⟨0, _⟩ => show win0_1.index t (0 : Fin 2) * 512 + 1 * q.val = win0_3.index t (1 : Fin 2) * 512 + 1 * q.val; omega
    | ⟨1, _⟩ => show win0_1.index t (1 : Fin 2) * 1024 + 1 * d.val = d.val; omega
  have h2 : ∀ d : Fin 1024, iblk m c 2 t (ix2 q d)
      = V m c main_arg2 (ix2 ((((cfg0.win 3).blk t).view.emb (ix2 p q)) 1) d) := by
    intro d
    show V m c main_arg2 (((cfg0.win 2).blk t).view.emb (ix2 q d)) = _
    refine congrArg (V m c main_arg2) (funext fun a => Fin.ext ?_)
    match a with
    | ⟨0, _⟩ => show win0_2.index t (0 : Fin 2) * 512 + 1 * q.val = win0_3.index t (1 : Fin 2) * 512 + 1 * q.val; omega
    | ⟨1, _⟩ => show win0_2.index t (1 : Fin 2) * 1024 + 1 * d.val = d.val; omega
  exact congr (congr (congrArg Cert.QuadForm.rowForm (funext h0)) (funext h1)) (funext h2)

/-- An index of the result is in point `t`'s block iff each coordinate is in the block's range on its axis. -/
theorem mem_blk (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v0).slice (win0_3.rect t)).set ↔ _
  rw [View.set_slice_whole, Rect.mem_set_unit]
  exact Iff.rfl

/-- The 64 blocks tile the result: row `r`, column `s` lies in the block at block row `r / 1024`, block column
    `s / 512`. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The result array after the run is the quadratic form of the argument arrays as launched. -/
theorem final (c : Dev nD) : (dats m 0 c).arrAt 3 cfg0.N
    = Cert.QuadForm.logProb (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: the result at the quadratic form of the arguments, the arguments unchanged. -/
theorem run : θ_run defs (onTc (τ := τ) (main (F := Ideal))) ⟨m, fun _ => 0, ρ⟩ fun r => ∀ c : Dev nD,
      r.2.mem ((c : Thread nD τ).loc main_v0)
        = Cert.QuadForm.logProb (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefEntry.lean ====
/-
  The reference's result, entry by entry, is the quadratic form. Its two `dot_general`s contract the rows of `x²`
  and of `x` with TRANSPOSED copies of `1 / s²` and `mu / s²`, so entry `(b, f)` sums row `b` of the left operand
  against row `f` of the untransposed right one; its `jnp.sum` over the last axis starts from zero, and `0 + Σ` is
  `Σ`; the broadcasts of the per-feature sum and of the three scalar constants read the same value at every row.
-/
import proofs.«127653_j32409823216060_1_alg».proof.Proof.Gen.ReferenceIdeal.Read
import proofs.«127653_j32409823216060_1_alg».proof.Proof.QuadForm

open scoped BigOperators

noncomputable section

namespace Cert.ReferenceIdeal.RefEntry

open Cert.ReferenceIdeal Cert.ReferenceIdeal.Gen Cert.ReferenceIdeal.Read Idealize.ShloMosaic Idealize.ShloMosaic.ValueIdx

/-- Row `b`, column `k` of a left operand of the products. -/
theorem left5 (b : Fin 8192) (f : Fin 4096) (k : Fin 1024) : lidx_main_v5 (ix2 b f) k = ix2 b k :=
  funext fun a => Fin.ext (by match a with | ⟨0, _⟩ => rfl | ⟨1, _⟩ => rfl)
theorem left8 (b : Fin 8192) (f : Fin 4096) (k : Fin 1024) : lidx_main_v8 (ix2 b f) k = ix2 b k :=
  funext fun a => Fin.ext (by match a with | ⟨0, _⟩ => rfl | ⟨1, _⟩ => rfl)

/-- Entry `(k, f)` of a transposed right operand is entry `(f, k)` of the untransposed one. -/
theorem right5 (b : Fin 8192) (f : Fin 4096) (k : Fin 1024) : idx_main_v4 (ridx_main_v5 (ix2 b f) k) = ix2 f k :=
  funext fun a => Fin.ext (by match a with | ⟨0, _⟩ => rfl | ⟨1, _⟩ => rfl)
theorem right8 (b : Fin 8192) (f : Fin 4096) (k : Fin 1024) : idx_main_v7 (ridx_main_v8 (ix2 b f) k) = ix2 f k :=
  funext fun a => Fin.ext (by match a with | ⟨0, _⟩ => rfl | ⟨1, _⟩ => rfl)

/-- The per-feature sum, broadcast over the rows, reads row `f` of its operand at `(b, f)`. -/
theorem summed (b : Fin 8192) (f : Fin 4096) (k : Fin 1024) :
    idx_main_v11 (idx_main_v15 (idx_main_v16 (ix2 b f))) k = ix2 f k :=
  funext fun a => Fin.ext (by match a with | ⟨0, _⟩ => rfl | ⟨1, _⟩ => rfl)

/-- The reference's last stage is the quadratic form of the argument arrays. -/
theorem result_eq (x0 : (⟨S8192x1024, .f32⟩ : BufTy).Contents (Elt Ideal)) (x1 x2 : (⟨S4096x1024, .f32⟩ : BufTy).Contents (Elt Ideal)) :
    val_main_v19 (F := Ideal) x0 x1 x2 = Cert.QuadForm.logProb x0 x1 x2 := by
  funext i
  obtain ⟨b, f, rfl⟩ : ∃ (b : Fin 8192) (f : Fin 4096), i = ix2 b f := ⟨i 0, i 1, eq_ix2 i⟩
  rw [Cert.QuadForm.logProb_apply]
  rw [val_main_v19_apply, val_main_v18_apply, val_main_cst_2_apply, val_main_v17_apply, val_main_v14_apply,
    val_main_v5_apply, val_main_v13_apply, val_main_v12_apply, val_main_cst_1_apply, val_main_v8_apply,
    val_main_v16_apply, val_main_v15_apply, val_main_v11_apply, val_main_cst_0_apply]
  simp only [val_main_v3_apply, val_main_v4_apply, val_main_v2_apply, val_main_v1_apply, val_main_cst_apply,
    val_main_v0_apply, val_main_v7_apply, val_main_v6_apply, val_main_v10_apply, val_main_v9_apply,
    left5, left8, right5, right8, summed,
    Ideal.mulf_def, Ideal.hostDivf_def, Ideal.subf_def, Ideal.addf_def, Ideal.ofBits_def, Ideal.ofBits_zero_f32, zero_add]
  rfl

end Cert.ReferenceIdeal.RefEntry

end
-- ==== Proof.lean ====
/-
  The kernel computes, for every batch row `b` and feature `f`, the unnormalised log-density of a diagonal
  Gaussian in expanded form,

      out[b, f] = -1/2 · ( ∑_d x[b,d]² / s[f,d]²  −  2 · ∑_d x[b,d] · (mu[f,d] / s[f,d]²)  +  ∑_d mu[f,d]² / s[f,d]² ),

  tile by tile over an 8 × 8 grid: the first two sums as matrix products of a block of `x²` (of `x`) with a block of
  `1/s²` (of `mu/s²`) stored row by row, the third as the product of a row of ones with a block of `mu²/s²`. The
  reference computes the same three sums over the whole arrays — two `dot_general`s against transposed operands
  and a `jnp.sum` over the last axis — and combines them with the same constants in the same order. On the extended
  reals the two are ONE function of the arguments, entry by entry: a product against a row-stored operand and a
  `dot_general` against its transpose are the same sum over `d`; narrowing an operand to bf16 is the identity;
  `1 · a = a` turns the ones-row product into the plain sum; `0 + Σ = Σ` removes the accumulator and the sum's
  initial value. No law that fails at the infinities is used (the three sums are never recombined), so the
  precondition is not opened, and a zero scale needs no special case: `1 / s²` is the total division on both sides.

  The kernel's frame at both instances is the generated one; the reference's is its generated run with the result
  dropped; the ideal pass rewrote nothing, so `preserves` is `True`.
-/
import proofs.«127653_j32409823216060_1_alg».proof.Defs
import proofs.«127653_j32409823216060_1_alg».proof.Proof.Gen.Kernel
import proofs.«127653_j32409823216060_1_alg».proof.Proof.Gen.Kernel.Skeleton
import proofs.«127653_j32409823216060_1_alg».proof.Proof.Gen.Kernel.Launch
import proofs.«127653_j32409823216060_1_alg».proof.Proof.Gen.Kernel.Points
import proofs.«127653_j32409823216060_1_alg».proof.Proof.Gen.Kernel.Frame
import proofs.«127653_j32409823216060_1_alg».proof.Proof.Gen.KernelIdeal
import proofs.«127653_j32409823216060_1_alg».proof.Proof.Gen.KernelIdeal.Skeleton
import proofs.«127653_j32409823216060_1_alg».proof.Proof.Gen.KernelIdeal.Launch
import proofs.«127653_j32409823216060_1_alg».proof.Proof.Gen.KernelIdeal.Points
import proofs.«127653_j32409823216060_1_alg».proof.Proof.Gen.KernelIdeal.Frame
import proofs.«127653_j32409823216060_1_alg».proof.Proof.Gen.ReferenceIdeal
import proofs.«127653_j32409823216060_1_alg».proof.Proof.Gen.Pre_finite_inputs
import proofs.«127653_j32409823216060_1_alg».proof.Proof.Gen.KernelIdeal.Value
import proofs.«127653_j32409823216060_1_alg».proof.Proof.Gen.ReferenceIdeal.Run
import proofs.«127653_j32409823216060_1_alg».proof.Proof.Gen.ReferenceIdeal.Read
import proofs.«127653_j32409823216060_1_alg».proof.Proof.KernelWhole
import proofs.«127653_j32409823216060_1_alg».proof.Proof.RefEntry
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x`, `mu` and the scales, both programs end with the result array at the quadratic
    form of those arguments: the kernel block by block over its grid, the reference stage by stage. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefEntry.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
